-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x128 .f32) (main_arg3 : FVec F S64x128 .f32) (main_arg4 : FVec F S128 .f32) (main_arg5 : FVec F S128x64 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x64, .f32⟩
  | .hbm, ⟨59, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SageSpec.lean ====
/-
  One graph-convolution layer with mean aggregation, read over the extended reals.

  For node features `x` ([N, K]), aggregated neighbour features `a` ([N, K]), two weight matrices `wl`, `wr`
  ([K, M]) and a bias row `b` ([1, M]), the layer's value at row `p`, column `q` is
      act ( Σₖ a[p,k]·wl[k,q]  +  Σₖ x[p,k]·wr[k,q]  +  b[0,q] ),
  the two matrix products added first and the bias last. `act` is `max · 0` in the first layer and the logistic
  function `1 / (1 + e^(-·))` in the second.

  The mean over a node's incoming edges divides the summed messages by `c = max(count, 1)`. One program divides by `c`,
  the other multiplies by `1 / c`. On the extended reals a quotient by a divisor that is not zero IS the product with the
  divisor's inverse, and `1 / c` is that inverse, so the two agree for every `c ≠ 0`, the infinite ones included; and
  `max(count, 1) ≥ 1` is never zero, whatever the count.
-/
import Idealize.ShloMosaic.PureOps.Ideal
import Idealize.ShloMosaic.PureOps.Ideal.Laws
import Idealize.ShloMosaic.Lib.ValueIdx

noncomputable section

namespace Sage

open Idealize.ShloMosaic Idealize.ShloMosaic.ValueIdx

/-- Row `p`, column `q` of `a·wl + x·wr + b`: the two products' sums over the shared axis, then the bias row's entry. -/
def pre {N K M : Nat} (a x : (⟨2, ![N, K]⟩ : Shape).Idx → EReal) (wl wr : (⟨2, ![K, M]⟩ : Shape).Idx → EReal)
    (b : (⟨2, ![1, M]⟩ : Shape).Idx → EReal) (p : Fin N) (q : Fin M) : EReal :=
  (∑ k : Fin K, a (ix2 p k) * wl (ix2 k q)) + (∑ k : Fin K, x (ix2 p k) * wr (ix2 k q)) + b (ix2 (0 : Fin 1) q)

/-- The layer as one function of whole arrays: the activation of `pre` at every row and column. -/
def layer (act : EReal → EReal) {N K M : Nat} (a x : (⟨2, ![N, K]⟩ : Shape).Idx → EReal)
    (wl wr : (⟨2, ![K, M]⟩ : Shape).Idx → EReal) (b : (⟨2, ![1, M]⟩ : Shape).Idx → EReal) :
    (⟨2, ![N, M]⟩ : Shape).Idx → EReal :=
  fun j => act (pre a x wl wr b (j 0) (j 1))

theorem layer_apply (act : EReal → EReal) {N K M : Nat} (a x : (⟨2, ![N, K]⟩ : Shape).Idx → EReal)
    (wl wr : (⟨2, ![K, M]⟩ : Shape).Idx → EReal) (b : (⟨2, ![1, M]⟩ : Shape).Idx → EReal) (p : Fin N) (q : Fin M) :
    layer act a x wl wr b (ix2 p q) = act (pre a x wl wr b p q) := rfl

/-- `pre` at row `p`, column `q` reads only row `p` of the two feature arrays, column `q` of the two weight matrices and entry
    `q` of the bias row: two sets of arrays that agree there give the same value (the rows may sit at different places
    `p`, `p'` of arrays of different heights: a block of rows against the whole array). -/
theorem pre_eq_of_rows {N N' K M : Nat} (a x : (⟨2, ![N, K]⟩ : Shape).Idx → EReal) (a' x' : (⟨2, ![N', K]⟩ : Shape).Idx → EReal)
    (wl wr wl' wr' : (⟨2, ![K, M]⟩ : Shape).Idx → EReal) (b b' : (⟨2, ![1, M]⟩ : Shape).Idx → EReal)
    (p : Fin N) (p' : Fin N') (q : Fin M)
    (ha : ∀ k : Fin K, a (ix2 p k) = a' (ix2 p' k)) (hx : ∀ k : Fin K, x (ix2 p k) = x' (ix2 p' k))
    (hwl : ∀ k : Fin K, wl (ix2 k q) = wl' (ix2 k q)) (hwr : ∀ k : Fin K, wr (ix2 k q) = wr' (ix2 k q))
    (hb : b (ix2 (0 : Fin 1) q) = b' (ix2 (0 : Fin 1) q)) :
    pre a x wl wr b p q = pre a' x' wl' wr' b' p' q := by
  unfold pre
  simp only [ha, hx, hwl, hwr, hb]

/-- The first layer's activation: the positive part. -/
def relu (v : EReal) : EReal := max v 0

/-- The logistic function applied lane by lane, read at one lane. -/
theorem logistic_apply {s : Shape} {φ : FTy} (v : FVec Ideal s φ) (i : s.Idx) : logistic v i = Ideal.logistic (v i) := rfl

/-- A quotient by a divisor that is not zero is the product with `1` over that divisor. -/
theorem div_eq_mul_one_div (a c : EReal) (hc : c ≠ 0) : Ideal.div a c = a * Ideal.div 1 c := by
  rw [Ideal.div, if_neg hc, Ideal.div, if_neg hc, one_mul]

/-- The larger of a count and one is not zero. -/
theorem max_one_ne_zero (n : EReal) : max n 1 ≠ 0 :=
  (lt_of_lt_of_le zero_lt_one (le_max_right n 1)).ne'

/-- So dividing by `max n 1` and multiplying by its reciprocal agree, for every extended real `n`. -/
theorem div_max_one (a n : EReal) : Ideal.div a (max n 1) = a * Ideal.div 1 (max n 1) :=
  div_eq_mul_one_div a _ (max_one_ne_zero n)

/-- The mean over incoming edges, as whole arrays: the summed messages `A` divided by every node's `max(n, 1)` (repeated along the
    feature axis by two broadcasts) are the summed messages times every node's `1 / max(n, 1)` repeated the same way. The
    two broadcasts read the same node of both, so this is `div_max_one` at every entry. -/
theorem mean_div_eq_mul {s1 s2 s3 : Shape} (d1 : Fin s1.rank → Fin s2.rank) (h1 : s1.BroadcastsInDim s2 d1)
    (d2 : Fin s2.rank → Fin s3.rank) (h2 : s2.BroadcastsInDim s3 d2)
    (A : FVec Ideal s3 .f32) (n one one' : FVec Ideal s1 .f32) (hone : ∀ i, one i = 1) (hone' : ∀ i, one' i = 1) :
    Host.divf A (broadcastInDim s3 d2 h2 (broadcastInDim s2 d1 h1 (maximumf n one)))
      = mulf A (broadcastInDim s3 d2 h2 (broadcastInDim s2 d1 h1 (Host.divf one' (maximumf n one)))) := by
  funext i
  simp only [Host.divf, mulf, maximumf, broadcastInDim, Ideal.hostDivf_def, Ideal.mulf_def, Ideal.maximumf_def, hone, hone']
  exact div_max_one _ _

end Sage

end
-- ==== Proof.Layer1Body.lean ====
/-
  Layer 1 of the network as the kernel computes it: what pallas_call 0 leaves in its result array.

  The call walks the 100000 node rows in 20 blocks of 5000. At block `t` its body loads rows `5000·t … 5000·t + 4999` of the
  aggregated features and of the node features (each [5000, 64]), the two whole weight matrices ([64, 128]) and the bias row
  ([1, 128]), and stores, at row `p` and column `q` of the block,
      act ( Σₖ agg[p,k]·Wl[k,q] + Σₖ feat[p,k]·Wr[k,q] + bias[0,q] ),        act = Sage.relu:
  the two matrix-unit products into a zero accumulator are plain sums over the shared axis (the operands' change to a
  sixteen-bit format is the identity on extended reals), and the bias row is repeated down the rows. Row `p` of block `t` is
  row `5000·t + p` of the arrays and the blocks tile the result array, so after the call the array holds the layer's value
  `Sage.layer` of the five arrays as the call found them, at every row and column.
-/
import proofs.«140453_j18219251270415_1_alg».proof.Proof.Gen.KernelIdeal.Frame
import proofs.«140453_j18219251270415_1_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix-unit product at an index -/

theorem lhs_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A [5000, 64] by [64, 128] product into the zero accumulator, at row `p` and column `q`: the sum over the shared axis. -/
theorem mm_apply {φ₁ φ₂ : FTy} (l : FVec Ideal S5000x64 φ₁) (r : FVec Ideal S64x128 φ₂) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_0 _ _).trans hk
    | ⟨1, _⟩ => exact rhs_1 _ _)
  rw [el, er]

/-! ## The body's stored value at an index -/

/-- The bias row repeated down the 5000 rows, at row `p` and column `q`, is the row's entry `q`. -/
theorem bias_apply (x4 : Vec Ideal S1x128 .f32) (p : Fin 5000) (q : Fin 128) :
    broadcastTo S5000x128 x4 broadcasts_S1x128_S5000x128 (ix2 p q) = x4 (ix2 (0 : Fin 1) q) := by
  refine broadcastTo_apply x4 broadcasts_S1x128_S5000x128 (ix2 p q) (ix2 (0 : Fin 1) q) fun a => ?_
  match a with
  | ⟨0, _⟩ => show 0 = if (1 : Nat) = 1 then 0 else _; rw [if_pos rfl]
  | ⟨1, _⟩ => show q.val = if (128 : Nat) = 1 then 0 else q.val; rw [if_neg (by decide)]

/-- What the body stores at row `p`, column `q` of its block, from the five blocks it loaded. -/
theorem pay_apply (x0 x1 : Vec Ideal S5000x64 .f32) (x2 x3 : Vec Ideal S64x128 .f32) (x4 : Vec Ideal S1x128 .f32) (p : Fin 5000) (q : Fin 128) :
    k0_pay1 (F := Ideal) x0 x1 x2 x3 x4 (ix2 p q) = Sage.relu (Sage.pre x0 x1 x2 x3 x4 p q) := by
  unfold k0_pay1
  simp only [maximumf_apply, Sage.logistic_apply, addf_apply, broadcast_apply, mm_apply, truncf_apply, shapeCast_self,
    Ideal.ofBits_def, Ideal.ofBits_zero_f32]
  rw [bias_apply x4 p q]
  rfl

/-! ## The blocks -/

theorem hz : (![0, 0] : Fin 2 → Nat) = fun _ => 0 := funext fun a => by fin_cases a <;> rfl

/-- The printed index maps over the grid: the three row-blocked windows are at block row `t`, block column 0; the weights and
    the bias are always at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 := by
  have h : t.val < cfg0.N := t.isLt
  have e : cfg0.N = 20 := N_0
  omega

section
variable (V : (c : Dev nD) → (b : Ref sig .tc) → Buf (Elt Ideal) ((c : Thread nD τ).loc b))

/-- The layer's value of the five arrays as the call finds them. -/
def value (c : Dev nD) : S100000x128.Idx → EReal :=
  Sage.layer Sage.relu (N := 100000) (K := 64) (M := 128) (V c main_v24) (V c main_arg0) (V c main_arg2) (V c main_arg3) (V c main_v25)

/-- WHAT BLOCK `t` WRITES BACK is block `t` of the layer's value. -/
theorem flushed_eq (c : Dev nD) (t : Fin cfg0.N) :
    (dat0 V c).flushed 5 t = ((cfg0.win 5).blk t).view.read (Elt Ideal) (value V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  obtain ⟨e00, e01, e10, e11, e20, e21, e30, e31, e40, e41, e50, e51⟩ := idx_facts t
  have ht := t_lt t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = value V c (((cfg0.win 5).blk t).view.emb (ix2 p q))
  refine (pay_apply (iblk0 V c 0 t) (iblk0 V c 1 t) (iblk0 V c 2 t) (iblk0 V c 3 t) (iblk0 V c 4 t) p q).trans ?_
  have he : ((cfg0.win 5).blk t).view.emb (ix2 p q) = ix2 (⟨5000 * t.val + p.val, by omega⟩ : Fin 100000) q := by
    funext a; apply Fin.ext
    match a with
    | ⟨0, _⟩ => show win0_5.index t (0 : Fin 2) * 5000 + 1 * p.val = 5000 * t.val + p.val; rw [e50]; omega
    | ⟨1, _⟩ => show win0_5.index t (1 : Fin 2) * 128 + 1 * q.val = q.val; rw [e51]; omega
  rw [he]
  show _ = Sage.relu (Sage.pre (N := 100000) (K := 64) (M := 128) (V c main_v24) (V c main_arg0) (V c main_arg2) (V c main_arg3) (V c main_v25)
    (⟨5000 * t.val + p.val, by omega⟩ : Fin 100000) q)
  refine congrArg Sage.relu (Sage.pre_eq_of_rows _ _ _ _ _ _ _ _ _ _ p _ q ?_ ?_ ?_ ?_ ?_)
  · intro k
    show V c main_v24 (((cfg0.win 0).blk t).view.emb (ix2 p k)) = V c main_v24 (ix2 (⟨5000 * t.val + p.val, by omega⟩ : Fin 100000) k)
    refine congrArg (V c main_v24) (funext fun a => Fin.ext ?_)
    match a with
    | ⟨0, _⟩ => show win0_0.index t (0 : Fin 2) * 5000 + 1 * p.val = 5000 * t.val + p.val; rw [e00]; omega
    | ⟨1, _⟩ => show win0_0.index t (1 : Fin 2) * 64 + 1 * k.val = k.val; rw [e01]; omega
  · intro k
    show V c main_arg0 (((cfg0.win 1).blk t).view.emb (ix2 p k)) = V c main_arg0 (ix2 (⟨5000 * t.val + p.val, by omega⟩ : Fin 100000) k)
    refine congrArg (V c main_arg0) (funext fun a => Fin.ext ?_)
    match a with
    | ⟨0, _⟩ => show win0_1.index t (0 : Fin 2) * 5000 + 1 * p.val = 5000 * t.val + p.val; rw [e10]; omega
    | ⟨1, _⟩ => show win0_1.index t (1 : Fin 2) * 64 + 1 * k.val = k.val; rw [e11]; omega
  · intro k
    show V c main_arg2 (((cfg0.win 2).blk t).view.emb (ix2 k q)) = V c main_arg2 (ix2 k q)
    refine congrArg (V c main_arg2) (funext fun a => Fin.ext ?_)
    match a with
    | ⟨0, _⟩ => show win0_2.index t (0 : Fin 2) * 64 + 1 * k.val = k.val; rw [e20]; omega
    | ⟨1, _⟩ => show win0_2.index t (1 : Fin 2) * 128 + 1 * q.val = q.val; rw [e21]; omega
  · intro k
    show V c main_arg3 (((cfg0.win 3).blk t).view.emb (ix2 k q)) = V c main_arg3 (ix2 k q)
    refine congrArg (V c main_arg3) (funext fun a => Fin.ext ?_)
    match a with
    | ⟨0, _⟩ => show win0_3.index t (0 : Fin 2) * 64 + 1 * k.val = k.val; rw [e30]; omega
    | ⟨1, _⟩ => show win0_3.index t (1 : Fin 2) * 128 + 1 * q.val = q.val; rw [e31]; omega
  · show V c main_v25 (((cfg0.win 4).blk t).view.emb (ix2 (0 : Fin 1) q)) = V c main_v25 (ix2 (0 : Fin 1) q)
    refine congrArg (V c main_v25) (funext fun a => Fin.ext ?_)
    match a with
    | ⟨0, _⟩ => show win0_4.index t (0 : Fin 2) * 1 + 1 * 0 = 0; rw [e40]
    | ⟨1, _⟩ => show win0_4.index t (1 : Fin 2) * 128 + 1 * q.val = q.val; rw [e41]; omega

/-- An index of the result array is in block `t` iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every row is in some block: row `r` in block `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000
              rw [e50]; show (i 0).val / 5000 * 5000 ≤ (i 0).val ∧ (i 0).val < (i 0).val / 5000 * 5000 + 5000; omega
  | ⟨1, _⟩ => show win0_5.index t (1 : Fin 2) * 128 ≤ (i 1).val ∧ (i 1).val < win0_5.index t (1 : Fin 2) * 128 + 128
              rw [e51]; omega

/-- THE RESULT ARRAY after the call: the layer's value of the five arrays as the call found them. -/
theorem final (c : Dev nD) : (dat0 V c).arrAt 5 cfg0.N = value V c :=
  (dat0 V c).arrAt_eq_of_cover 5 (value V c) (fun t _ => flushed_eq V c t) cover

end

end Cert.KernelIdeal.Layer1

end
-- ==== Proof.Layer2Body.lean ====
/-
  Layer 2 of the network as the kernel computes it: what pallas_call 1 leaves in its result array.

  The call walks the 100000 node rows in 20 blocks of 5000. At block `t` its body loads rows `5000·t … 5000·t + 4999` of the
  aggregated features and of the node features (each [5000, 128]), the two whole weight matrices ([128, 64]) and the bias row
  ([1, 64]), and stores, at row `p` and column `q` of the block,
      act ( Σₖ agg[p,k]·Wl[k,q] + Σₖ feat[p,k]·Wr[k,q] + bias[0,q] ),        act = Ideal.logistic:
  the two matrix-unit products into a zero accumulator are plain sums over the shared axis (the operands' change to a
  sixteen-bit format is the identity on extended reals), and the bias row is repeated down the rows. Row `p` of block `t` is
  row `5000·t + p` of the arrays and the blocks tile the result array, so after the call the array holds the layer's value
  `Sage.layer` of the five arrays as the call found them, at every row and column.
-/
import proofs.«140453_j18219251270415_1_alg».proof.Proof.Gen.KernelIdeal.Frame
import proofs.«140453_j18219251270415_1_alg».proof.Proof.SageSpec
import Idealize.ShloMosaic.Lib.Pipeline.Value
import Idealize.ShloMosaic.Lib.ValueIdx
import Idealize.ShloMosaic.PureOps.Ideal.Laws

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix-unit product at an index -/

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A [5000, 128] by [128, 64] product into the zero accumulator, at row `p` and column `q`: the sum over the shared axis. -/
theorem mm_apply {φ₁ φ₂ : FTy} (l : FVec Ideal S5000x128 φ₁) (r : FVec Ideal S128x64 φ₂) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The body's stored value at an index -/

/-- The bias row repeated down the 5000 rows, at row `p` and column `q`, is the row's entry `q`. -/
theorem bias_apply (x4 : Vec Ideal S1x64 .f32) (p : Fin 5000) (q : Fin 64) :
    broadcastTo S5000x64 x4 broadcasts_S1x64_S5000x64 (ix2 p q) = x4 (ix2 (0 : Fin 1) q) := by
  refine broadcastTo_apply x4 broadcasts_S1x64_S5000x64 (ix2 p q) (ix2 (0 : Fin 1) q) fun a => ?_
  match a with
  | ⟨0, _⟩ => show 0 = if (1 : Nat) = 1 then 0 else _; rw [if_pos rfl]
  | ⟨1, _⟩ => show q.val = if (64 : Nat) = 1 then 0 else q.val; rw [if_neg (by decide)]

/-- What the body stores at row `p`, column `q` of its block, from the five blocks it loaded. -/
theorem pay_apply (x0 x1 : Vec Ideal S5000x128 .f32) (x2 x3 : Vec Ideal S128x64 .f32) (x4 : Vec Ideal S1x64 .f32) (p : Fin 5000) (q : Fin 64) :
    k1_pay1 (F := Ideal) x0 x1 x2 x3 x4 (ix2 p q) = Ideal.logistic (Sage.pre x0 x1 x2 x3 x4 p q) := by
  unfold k1_pay1
  simp only [maximumf_apply, Sage.logistic_apply, addf_apply, broadcast_apply, mm_apply, truncf_apply, shapeCast_self,
    Ideal.ofBits_def, Ideal.ofBits_zero_f32]
  rw [bias_apply x4 p q]
  rfl

/-! ## The blocks -/

theorem hz : (![0, 0] : Fin 2 → Nat) = fun _ => 0 := funext fun a => by fin_cases a <;> rfl

/-- The printed index maps over the grid: the three row-blocked windows are at block row `t`, block column 0; the weights and
    the bias are always at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 20 := by
  have h : t.val < cfg1.N := t.isLt
  have e : cfg1.N = 20 := N_1
  omega

section
variable (V : (c : Dev nD) → (b : Ref sig .tc) → Buf (Elt Ideal) ((c : Thread nD τ).loc b))

/-- The layer's value of the five arrays as the call finds them. -/
def value (c : Dev nD) : S100000x64.Idx → EReal :=
  Sage.layer Ideal.logistic (N := 100000) (K := 128) (M := 64) (V c main_v39) (V c main_v26) (V c main_arg5) (V c main_arg6) (V c main_v40)

/-- WHAT BLOCK `t` WRITES BACK is block `t` of the layer's value. -/
theorem flushed_eq (c : Dev nD) (t : Fin cfg1.N) :
    (dat1 V c).flushed 5 t = ((cfg1.win 5).blk t).view.read (Elt Ideal) (value V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts t
  have ht := t_lt t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = value V c (((cfg1.win 5).blk t).view.emb (ix2 p q))
  refine (pay_apply (iblk1 V c 0 t) (iblk1 V c 1 t) (iblk1 V c 2 t) (iblk1 V c 3 t) (iblk1 V c 4 t) p q).trans ?_
  have he : ((cfg1.win 5).blk t).view.emb (ix2 p q) = ix2 (⟨5000 * t.val + p.val, by omega⟩ : Fin 100000) q := by
    funext a; apply Fin.ext
    match a with
    | ⟨0, _⟩ => show win1_5.index t (0 : Fin 2) * 5000 + 1 * p.val = 5000 * t.val + p.val; rw [e50]; omega
    | ⟨1, _⟩ => show win1_5.index t (1 : Fin 2) * 64 + 1 * q.val = q.val; rw [e51]; omega
  rw [he]
  show _ = Ideal.logistic (Sage.pre (N := 100000) (K := 128) (M := 64) (V c main_v39) (V c main_v26) (V c main_arg5) (V c main_arg6) (V c main_v40)
    (⟨5000 * t.val + p.val, by omega⟩ : Fin 100000) q)
  refine congrArg Ideal.logistic (Sage.pre_eq_of_rows _ _ _ _ _ _ _ _ _ _ p _ q ?_ ?_ ?_ ?_ ?_)
  · intro k
    show V c main_v39 (((cfg1.win 0).blk t).view.emb (ix2 p k)) = V c main_v39 (ix2 (⟨5000 * t.val + p.val, by omega⟩ : Fin 100000) k)
    refine congrArg (V c main_v39) (funext fun a => Fin.ext ?_)
    match a with
    | ⟨0, _⟩ => show win1_0.index t (0 : Fin 2) * 5000 + 1 * p.val = 5000 * t.val + p.val; rw [e00]; omega
    | ⟨1, _⟩ => show win1_0.index t (1 : Fin 2) * 128 + 1 * k.val = k.val; rw [e01]; omega
  · intro k
    show V c main_v26 (((cfg1.win 1).blk t).view.emb (ix2 p k)) = V c main_v26 (ix2 (⟨5000 * t.val + p.val, by omega⟩ : Fin 100000) k)
    refine congrArg (V c main_v26) (funext fun a => Fin.ext ?_)
    match a with
    | ⟨0, _⟩ => show win1_1.index t (0 : Fin 2) * 5000 + 1 * p.val = 5000 * t.val + p.val; rw [e10]; omega
    | ⟨1, _⟩ => show win1_1.index t (1 : Fin 2) * 128 + 1 * k.val = k.val; rw [e11]; omega
  · intro k
    show V c main_arg5 (((cfg1.win 2).blk t).view.emb (ix2 k q)) = V c main_arg5 (ix2 k q)
    refine congrArg (V c main_arg5) (funext fun a => Fin.ext ?_)
    match a with
    | ⟨0, _⟩ => show win1_2.index t (0 : Fin 2) * 128 + 1 * k.val = k.val; rw [e20]; omega
    | ⟨1, _⟩ => show win1_2.index t (1 : Fin 2) * 64 + 1 * q.val = q.val; rw [e21]; omega
  · intro k
    show V c main_arg6 (((cfg1.win 3).blk t).view.emb (ix2 k q)) = V c main_arg6 (ix2 k q)
    refine congrArg (V c main_arg6) (funext fun a => Fin.ext ?_)
    match a with
    | ⟨0, _⟩ => show win1_3.index t (0 : Fin 2) * 128 + 1 * k.val = k.val; rw [e30]; omega
    | ⟨1, _⟩ => show win1_3.index t (1 : Fin 2) * 64 + 1 * q.val = q.val; rw [e31]; omega
  · show V c main_v40 (((cfg1.win 4).blk t).view.emb (ix2 (0 : Fin 1) q)) = V c main_v40 (ix2 (0 : Fin 1) q)
    refine congrArg (V c main_v40) (funext fun a => Fin.ext ?_)
    match a with
    | ⟨0, _⟩ => show win1_4.index t (0 : Fin 2) * 1 + 1 * 0 = 0; rw [e40]
    | ⟨1, _⟩ => show win1_4.index t (1 : Fin 2) * 64 + 1 * q.val = q.val; rw [e41]; omega

/-- An index of the result array is in block `t` iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Every row is in some block: row `r` in block `r / 5000`. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by omega⟩
  obtain ⟨-, -, -, -, -, -, -, -, -, -, e50, e51⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000
              rw [e50]; show (i 0).val / 5000 * 5000 ≤ (i 0).val ∧ (i 0).val < (i 0).val / 5000 * 5000 + 5000; omega
  | ⟨1, _⟩ => show win1_5.index t (1 : Fin 2) * 64 ≤ (i 1).val ∧ (i 1).val < win1_5.index t (1 : Fin 2) * 64 + 64
              rw [e51]; omega

/-- THE RESULT ARRAY after the call: the layer's value of the five arrays as the call found them. -/
theorem final (c : Dev nD) : (dat1 V c).arrAt 5 cfg1.N = value V c :=
  (dat1 V c).arrAt_eq_of_cover 5 (value V c) (fun t _ => flushed_eq V c t) cover

end

end Cert.KernelIdeal.Layer2

end
-- ==== Proof.HostChain.lean ====
/-
  The host operations around the two pallas_calls, as functions of @main's arguments, and the kernel's result from them.

  From the edge list `e` ([2, E]: row 0 the source nodes, row 1 the destination nodes) @main computes once
    * `count d`: for every node the number of edges whose destination it is (a scatter-add of ones into zeros),
    * `countInv d = 1 / max(count d, 1)`,
  and for each layer, from that layer's input features `f`,
    * `sum s d f`: the features of each edge's source node (a gather of rows, negative node numbers wrapped by the
      array's height first) added into the edge's destination node (a scatter-add into zeros),
    * `mean s d ci f = sum s d f · ci`, every row scaled by its node's `countInv`.
  Pallas_call 0 then computes layer 1 from `mean` of the node features, the node features, the first weights and bias;
  pallas_call 1 computes layer 2 from `mean` of layer 1's result, that result, the second weights and bias.
  Here each buffer a call reads is read back to these terms through the operations that ran before it, and the result
  buffer to `output` of the eight arguments.
-/
import proofs.«140453_j18219251270415_1_alg».proof.Proof.Gen.KernelIdeal.Frame
import proofs.«140453_j18219251270415_1_alg».proof.Proof.Layer1Body
import proofs.«140453_j18219251270415_1_alg».proof.Proof.Layer2Body
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

/-! ## The host operations' terms -/

/-- Row 0 of the edge list: each edge's source node. -/
def srcRow (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
/-- Row 1 of the edge list: each edge's destination node. -/
def dstRow (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000
/-- The gather's index array: the source nodes, a negative number wrapped by the array's height, as an [E, 1] array. -/
def srcIx (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The scatters' index array: the destination nodes as an [E, 1] array. -/
def dstIx (d : (⟨S1600000, .i32⟩ : BufTy).Contents (Elt Ideal)) : (⟨S1600000x1, .i32⟩ : BufTy).Contents (Elt Ideal) :=
  broadcastInDim S1600000x1 ![0] bcast_S1600000_S1600000x1_0 d
/-- Every node's number of incoming edges. -/
def count (d : (⟨S1600000, .i32⟩ : BufTy).Contents (Elt Ideal)) : FVec Ideal S100000 .f32 :=
  Host.scatterAdd scatter_S100000_S1600000x1_S1600000_n_0_0_1 (broadcastInDim S100000 ![] bcast_S_S100000 (constant S_ .f32 0x00000000#32))
    (dstIx d) (broadcastInDim S1600000 ![] bcast_S_S1600000 (constant S_ .f32 0x3F800000#32))
/-- One over the larger of that number and one. -/
def countInv (d : (⟨S1600000, .i32⟩ : BufTy).Contents (Elt Ideal)) : FVec Ideal S100000 .f32 :=
  Host.divf (broadcastInDim S100000 ![] bcast_S_S100000 (constant S_ .f32 0x3F800000#32))
    (maximumf (count d) (broadcastInDim S100000 ![] bcast_S_S100000 (constant S_ .f32 0x3F800000#32)))
/-- The source nodes' feature rows added into the destination nodes, 64 features wide. -/
def sum64 (s d : (⟨S1600000, .i32⟩ : BufTy).Contents (Elt Ideal)) (f : FVec Ideal S100000x64 .f32) : FVec Ideal S100000x64 .f32 :=
  Host.scatterAdd scatter_S100000x64_S1600000x1_S1600000x64_1_0_0_1 (broadcastInDim S100000x64 ![] bcast_S_S100000x64 (constant S_ .f32 0x00000000#32))
    (dstIx d) (Host.gather gather_S100000x64_S1600000x1_S1600000x64_1_0_n_n_0_1_164 f (srcIx s))
/-- Every row of that sum scaled by its node's factor `ci`. -/
def mean64 (s d : (⟨S1600000, .i32⟩ : BufTy).Contents (Elt Ideal)) (ci : FVec Ideal S100000 .f32) (f : FVec Ideal S100000x64 .f32) :
    FVec Ideal S100000x64 .f32 :=
  mulf (sum64 s d f) (broadcastInDim S100000x64 ![0, 1] bcast_S100000x1_S100000x64_0_1 (broadcastInDim S100000x1 ![0] bcast_S100000_S100000x1_0 ci))
/-- The same two, 128 features wide. -/
def sum128 (s d : (⟨S1600000, .i32⟩ : BufTy).Contents (Elt Ideal)) (f : FVec Ideal S100000x128 .f32) : FVec Ideal S100000x128 .f32 :=
  Host.scatterAdd scatter_S100000x128_S1600000x1_S1600000x128_1_0_0_1 (broadcastInDim S100000x128 ![] bcast_S_S100000x128 (constant S_ .f32 0x00000000#32))
    (dstIx d) (Host.gather gather_S100000x128_S1600000x1_S1600000x128_1_0_n_n_0_1_1128 f (srcIx s))
def mean128 (s d : (⟨S1600000, .i32⟩ : BufTy).Contents (Elt Ideal)) (ci : FVec Ideal S100000 .f32) (f : FVec Ideal S100000x128 .f32) :
    FVec Ideal S100000x128 .f32 :=
  mulf (sum128 s d f) (broadcastInDim S100000x128 ![0, 1] bcast_S100000x1_S100000x128_0_1 (broadcastInDim S100000x1 ![0] bcast_S100000_S100000x1_0 ci))

/-- Layer 1 as the kernel's program computes it from the arguments. -/
def hidden (e : (⟨S2x1600000, .i32⟩ : BufTy).Contents (Elt Ideal)) (x : FVec Ideal S100000x64 .f32)
    (wl wr : FVec Ideal S64x128 .f32) (b : FVec Ideal S128 .f32) : S100000x128.Idx → EReal :=
  Sage.layer Sage.relu (N := 100000) (K := 64) (M := 128) (mean64 (srcRow e) (dstRow e) (countInv (dstRow e)) x) x wl wr
    (shapeCast S1x128 b shapeCasts_S128_S1x128)
/-- Layer 2 of layer 1: the kernel's result. -/
def output (e : (⟨S2x1600000, .i32⟩ : BufTy).Contents (Elt Ideal)) (x : FVec Ideal S100000x64 .f32)
    (wl1 wr1 : FVec Ideal S64x128 .f32) (b1 : FVec Ideal S128 .f32)
    (wl2 wr2 : FVec Ideal S128x64 .f32) (b2 : FVec Ideal S64 .f32) : S100000x64.Idx → EReal :=
  Sage.layer Ideal.logistic (N := 100000) (K := 128) (M := 64) (mean128 (srcRow e) (dstRow e) (countInv (dstRow e)) (hidden e x wl1 wr1 b1))
    (hidden e x wl1 wr1 b1) wl2 wr2 (shapeCast S1x64 b2 shapeCasts_S64_S1x64)

variable (m : (ℓ : Loc nD τ sig) → Buf (Elt Ideal) ℓ) (ρ : Dev nD → PrngReg)

/-! ## Pallas_call 0's arrays as it finds them -/

theorem V1_v1 (c : Dev nD) : V1 m ρ c main_v1 = srcRow (m ((c : Thread nD τ).loc main_arg1)) := by
  show StableHlo.after hostOps0 (W0 m ρ c) (Proc.devRef .tc main_v1) = _
  after_results_simp <;> rfl

theorem V1_v3 (c : Dev nD) : V1 m ρ c main_v3 = dstRow (m ((c : Thread nD τ).loc main_arg1)) := by
  show StableHlo.after hostOps0 (W0 m ρ c) (Proc.devRef .tc main_v3) = _
  after_results_simp <;> rfl

theorem V1_v11 (c : Dev nD) : V1 m ρ c main_v11 = countInv (dstRow (m ((c : Thread nD τ).loc main_arg1))) := by
  show StableHlo.after hostOps0 (W0 m ρ c) (Proc.devRef .tc main_v11) = _
  after_results_simp <;> rfl

theorem V1_v24 (c : Dev nD) : V1 m ρ c main_v24 = mean64 (srcRow (m ((c : Thread nD τ).loc main_arg1))) (dstRow (m ((c : Thread nD τ).loc main_arg1))) (countInv (dstRow (m ((c : Thread nD τ).loc main_arg1)))) (m ((c : Thread nD τ).loc main_arg0)) := by
  show StableHlo.after hostOps0 (W0 m ρ c) (Proc.devRef .tc main_v24) = _
  after_results_simp <;> rfl

theorem V1_arg0 (c : Dev nD) : V1 m ρ c main_arg0 = (m ((c : Thread nD τ).loc main_arg0)) := by
  show StableHlo.after hostOps0 (W0 m ρ c) (Proc.devRef .tc main_arg0) = _
  after_results_simp <;> rfl

theorem V1_arg2 (c : Dev nD) : V1 m ρ c main_arg2 = (m ((c : Thread nD τ).loc main_arg2)) := by
  show StableHlo.after hostOps0 (W0 m ρ c) (Proc.devRef .tc main_arg2) = _
  after_results_simp <;> rfl

theorem V1_arg3 (c : Dev nD) : V1 m ρ c main_arg3 = (m ((c : Thread nD τ).loc main_arg3)) := by
  show StableHlo.after hostOps0 (W0 m ρ c) (Proc.devRef .tc main_arg3) = _
  after_results_simp <;> rfl

theorem V1_arg5 (c : Dev nD) : V1 m ρ c main_arg5 = (m ((c : Thread nD τ).loc main_arg5)) := by
  show StableHlo.after hostOps0 (W0 m ρ c) (Proc.devRef .tc main_arg5) = _
  after_results_simp <;> rfl

theorem V1_arg6 (c : Dev nD) : V1 m ρ c main_arg6 = (m ((c : Thread nD τ).loc main_arg6)) := by
  show StableHlo.after hostOps0 (W0 m ρ c) (Proc.devRef .tc main_arg6) = _
  after_results_simp <;> rfl

theorem V1_arg7 (c : Dev nD) : V1 m ρ c main_arg7 = (m ((c : Thread nD τ).loc main_arg7)) := by
  show StableHlo.after hostOps0 (W0 m ρ c) (Proc.devRef .tc main_arg7) = _
  after_results_simp <;> rfl

theorem V1_v25 (c : Dev nD) : V1 m ρ c main_v25 = shapeCast S1x128 (m ((c : Thread nD τ).loc main_arg4)) shapeCasts_S128_S1x128 := by
  show StableHlo.after hostOps0 (W0 m ρ c) (Proc.devRef .tc main_v25) = _
  after_results_simp <;> rfl

/-- Pallas_call 0's result array after the call: layer 1 of the arguments. -/
theorem W2_hidden (c : Dev nD) :
    W2 m ρ c (Proc.devRef .tc main_v26) = hidden (m ((c : Thread nD τ).loc main_arg1)) (m ((c : Thread nD τ).loc main_arg0)) (m ((c : Thread nD τ).loc main_arg2)) (m ((c : Thread nD τ).loc main_arg3)) (m ((c : Thread nD τ).loc main_arg4)) := by
  refine (W2_arr m ρ c 5).trans ((Layer1.final (V1 m ρ) c).trans ?_)
  unfold Layer1.value hidden
  rw [V1_v24, V1_arg0, V1_arg2, V1_arg3, V1_v25]

/-! ## Pallas_call 1's arrays as it finds them -/

/-- A buffer that is none of pallas_call 0's arrays holds after the call what it held before. -/
theorem W2_v1 (c : Dev nD) : W2 m ρ c (Proc.devRef .tc main_v1) = srcRow (m ((c : Thread nD τ).loc main_arg1)) :=
  (W2_of_ne m ρ c main_v1 (by decide)).trans (V1_v1 m ρ c)
theorem W2_v3 (c : Dev nD) : W2 m ρ c (Proc.devRef .tc main_v3) = dstRow (m ((c : Thread nD τ).loc main_arg1)) :=
  (W2_of_ne m ρ c main_v3 (by decide)).trans (V1_v3 m ρ c)
theorem W2_v11 (c : Dev nD) : W2 m ρ c (Proc.devRef .tc main_v11) = countInv (dstRow (m ((c : Thread nD τ).loc main_arg1))) :=
  (W2_of_ne m ρ c main_v11 (by decide)).trans (V1_v11 m ρ c)
theorem W2_arg5 (c : Dev nD) : W2 m ρ c (Proc.devRef .tc main_arg5) = (m ((c : Thread nD τ).loc main_arg5)) :=
  (W2_of_ne m ρ c main_arg5 (by decide)).trans (V1_arg5 m ρ c)
theorem W2_arg6 (c : Dev nD) : W2 m ρ c (Proc.devRef .tc main_arg6) = (m ((c : Thread nD τ).loc main_arg6)) :=
  (W2_of_ne m ρ c main_arg6 (by decide)).trans (V1_arg6 m ρ c)
theorem W2_arg7 (c : Dev nD) : W2 m ρ c (Proc.devRef .tc main_arg7) = (m ((c : Thread nD τ).loc main_arg7)) :=
  (W2_of_ne m ρ c main_arg7 (by decide)).trans (V1_arg7 m ρ c)

theorem V3_v39 (c : Dev nD) : V3 m ρ c main_v39
    = mean128 (srcRow (m ((c : Thread nD τ).loc main_arg1))) (dstRow (m ((c : Thread nD τ).loc main_arg1))) (countInv (dstRow (m ((c : Thread nD τ).loc main_arg1)))) (hidden (m ((c : Thread nD τ).loc main_arg1)) (m ((c : Thread nD τ).loc main_arg0)) (m ((c : Thread nD τ).loc main_arg2)) (m ((c : Thread nD τ).loc main_arg3)) (m ((c : Thread nD τ).loc main_arg4))) := by
  have raw : V3 m ρ c main_v39 = mean128 (W2 m ρ c (Proc.devRef .tc main_v1)) (W2 m ρ c (Proc.devRef .tc main_v3))
      (W2 m ρ c (Proc.devRef .tc main_v11)) (W2 m ρ c (Proc.devRef .tc main_v26)) := by
    show StableHlo.after hostOps1 (W2 m ρ c) (Proc.devRef .tc main_v39) = _
    after_results_simp <;> rfl
  rw [raw, W2_v1, W2_v3, W2_v11, W2_hidden]
theorem V3_v26 (c : Dev nD) : V3 m ρ c main_v26 = hidden (m ((c : Thread nD τ).loc main_arg1)) (m ((c : Thread nD τ).loc main_arg0)) (m ((c : Thread nD τ).loc main_arg2)) (m ((c : Thread nD τ).loc main_arg3)) (m ((c : Thread nD τ).loc main_arg4)) := by
  rw [← W2_hidden m ρ c]
  show StableHlo.after hostOps1 (W2 m ρ c) (Proc.devRef .tc main_v26) = _
  after_results_simp <;> rfl
theorem V3_arg5 (c : Dev nD) : V3 m ρ c main_arg5 = (m ((c : Thread nD τ).loc main_arg5)) := by
  rw [← W2_arg5 m ρ c]
  show StableHlo.after hostOps1 (W2 m ρ c) (Proc.devRef .tc main_arg5) = _
  after_results_simp <;> rfl
theorem V3_arg6 (c : Dev nD) : V3 m ρ c main_arg6 = (m ((c : Thread nD τ).loc main_arg6)) := by
  rw [← W2_arg6 m ρ c]
  show StableHlo.after hostOps1 (W2 m ρ c) (Proc.devRef .tc main_arg6) = _
  after_results_simp <;> rfl
theorem V3_v40 (c : Dev nD) : V3 m ρ c main_v40 = shapeCast S1x64 (m ((c : Thread nD τ).loc main_arg7)) shapeCasts_S64_S1x64 := by
  rw [← W2_arg7 m ρ c]
  show StableHlo.after hostOps1 (W2 m ρ c) (Proc.devRef .tc main_v40) = _
  after_results_simp <;> rfl

/-- THE KERNEL'S RESULT: the result buffer after pallas_call 1 is `output` of the eight arguments. -/
theorem W4_output (c : Dev nD) :
    W4 m ρ c (Proc.devRef .tc main_v41) = output (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Layer2.final (V3 m ρ) c).trans ?_)
  unfold Layer2.value output
  rw [V3_v39, V3_v26, V3_arg5, V3_arg6, V3_v40]

end Cert.KernelIdeal.Chain

end
-- ==== Proof.RefValue.lean ====
/-
  The reference as the same two layers.

  The reference's @main computes, for each layer, the neighbours' summed features divided by `max(count, 1)`, two whole
  [100000, K] by [K, M] products, their sum plus the bias row repeated down the rows, and the activation: `max · 0` (jax's
  `relu`) after the first layer, and `1 / (1 + e^(-z))` spelled out operation by operation after the second — which is the
  logistic function's definition on the extended reals. Read at a row and a column through the reference's generated
  read-at-an-index lemmas, each layer is `Sage.layer` of the layer's mean, its input features, its weights and its bias row.
-/
import proofs.«140453_j18219251270415_1_alg».proof.Proof.Gen.ReferenceIdeal.Read
import proofs.«140453_j18219251270415_1_alg».proof.Proof.SageSpec
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open Idealize.ShloMosaic.ValueIdx

/-- The bias of layer 1 as a [1, 128] row: the vector given a leading axis of extent one, by a broadcast here and by a
    change of shape in the kernel's program; both read the vector's entry at the row's column. -/
theorem bias1_row (b : FVec Ideal S128 .f32) (h : S128.ShapeCasts S1x128) : val_main_v26 (F := Ideal) b = shapeCast S1x128 b h := by
  funext i
  rw [val_main_v26_apply]
  exact ((shapeCast_addUnit_apply ![128] b h i).trans (congrArg b (funext fun a => Fin.ext (by match a with | ⟨0, _⟩ => rfl)))).symm

/-- The same for layer 2's bias, a [1, 64] row. -/
theorem bias2_row (b : FVec Ideal S64 .f32) (h : S64.ShapeCasts S1x64) : val_main_v52 (F := Ideal) b = shapeCast S1x64 b h := by
  funext i
  rw [val_main_v52_apply]
  exact ((shapeCast_addUnit_apply ![64] b h i).trans (congrArg b (funext fun a => Fin.ext (by match a with | ⟨0, _⟩ => rfl)))).symm

/-- LAYER 1 of the reference: `relu` of the two products' sum plus the bias, at every row and column. -/
theorem layer1 (x0 : FVec Ideal S100000x64 .f32) (x1 : (⟨S2x1600000, .i32⟩ : BufTy).Contents (Elt Ideal)) (x2 x3 : FVec Ideal S64x128 .f32) (x4 : FVec Ideal S128 .f32) :
    val_main_v29 (F := Ideal) x0 x1 x2 x3 x4
      = Sage.layer Sage.relu (N := 100000) (K := 64) (M := 128) (val_main_v22 (F := Ideal) x0 x1) x0 x2 x3 (val_main_v26 (F := Ideal) x4) := by
  funext j
  obtain ⟨p, q, rfl⟩ : ∃ (p : Fin 100000) (q : Fin 128), j = ix2 p q := ⟨j 0, j 1, eq_ix2 j⟩
  have e1 : ∀ k : Fin 64, lidx_main_v23 (ix2 p q) k = ix2 p k := fun k => funext fun a => Fin.ext (by match a with | ⟨0, _⟩ => rfl | ⟨1, _⟩ => rfl)
  have e2 : ∀ k : Fin 64, ridx_main_v23 (ix2 p q) k = ix2 k q := fun k => funext fun a => Fin.ext (by match a with | ⟨0, _⟩ => rfl | ⟨1, _⟩ => rfl)
  have e3 : ∀ k : Fin 64, lidx_main_v24 (ix2 p q) k = ix2 p k := fun k => funext fun a => Fin.ext (by match a with | ⟨0, _⟩ => rfl | ⟨1, _⟩ => rfl)
  have e4 : ∀ k : Fin 64, ridx_main_v24 (ix2 p q) k = ix2 k q := fun k => funext fun a => Fin.ext (by match a with | ⟨0, _⟩ => rfl | ⟨1, _⟩ => rfl)
  have e5 : idx_main_v27 (ix2 p q) = ix2 (0 : Fin 1) q := funext fun a => Fin.ext (by match a with | ⟨0, _⟩ => rfl | ⟨1, _⟩ => rfl)
  rw [val_main_v29_apply, val_main_v28_apply, val_main_v25_apply, val_main_v23_apply, val_main_v24_apply, val_main_v27_apply,
    val_main_call0_v0_apply, val_main_call0_cst_apply]
  simp only [e1, e2, e3, e4, e5, Ideal.addf_def, Ideal.maximumf_def, Ideal.ofBits_def, Ideal.ofBits_zero_f32]
  rfl

/-- LAYER 2 of the reference: the logistic function of the two products' sum plus the bias, at every row and column. -/
theorem layer2 (x0 : FVec Ideal S100000x64 .f32) (x1 : (⟨S2x1600000, .i32⟩ : BufTy).Contents (Elt Ideal)) (x2 x3 : FVec Ideal S64x128 .f32) (x4 : FVec Ideal S128 .f32)
    (x5 x6 : FVec Ideal S128x64 .f32) (x7 : FVec Ideal S64 .f32) :
    val_main_v60 (F := Ideal) x0 x1 x2 x3 x4 x5 x6 x7
      = Sage.layer Ideal.logistic (N := 100000) (K := 128) (M := 64) (val_main_v48 (F := Ideal) x0 x1 x2 x3 x4) (val_main_v29 (F := Ideal) x0 x1 x2 x3 x4)
          x5 x6 (val_main_v52 (F := Ideal) x7) := by
  funext j
  obtain ⟨p, q, rfl⟩ : ∃ (p : Fin 100000) (q : Fin 64), j = ix2 p q := ⟨j 0, j 1, eq_ix2 j⟩
  have e1 : ∀ k : Fin 128, lidx_main_v49 (ix2 p q) k = ix2 p k := fun k => funext fun a => Fin.ext (by match a with | ⟨0, _⟩ => rfl | ⟨1, _⟩ => rfl)
  have e2 : ∀ k : Fin 128, ridx_main_v49 (ix2 p q) k = ix2 k q := fun k => funext fun a => Fin.ext (by match a with | ⟨0, _⟩ => rfl | ⟨1, _⟩ => rfl)
  have e3 : ∀ k : Fin 128, lidx_main_v50 (ix2 p q) k = ix2 p k := fun k => funext fun a => Fin.ext (by match a with | ⟨0, _⟩ => rfl | ⟨1, _⟩ => rfl)
  have e4 : ∀ k : Fin 128, ridx_main_v50 (ix2 p q) k = ix2 k q := fun k => funext fun a => Fin.ext (by match a with | ⟨0, _⟩ => rfl | ⟨1, _⟩ => rfl)
  have e5 : idx_main_v53 (ix2 p q) = ix2 (0 : Fin 1) q := funext fun a => Fin.ext (by match a with | ⟨0, _⟩ => rfl | ⟨1, _⟩ => rfl)
  rw [val_main_v60_apply, val_main_v59_apply, val_main_cst_11_apply, val_main_v58_apply, val_main_v57_apply, val_main_cst_10_apply,
    val_main_v56_apply, val_main_v55_apply, val_main_v54_apply, val_main_v51_apply, val_main_v49_apply, val_main_v50_apply, val_main_v53_apply]
  simp only [e1, e2, e3, e4, e5, Ideal.addf_def, Ideal.hostDivf_def, Ideal.hostUnary_exp_def, Ideal.hostNegf_def, Ideal.negf_def,
    Ideal.ofBits_def, Ideal.ofBits_one_f32]
  rfl

end Cert.ReferenceIdeal.RefValue

end
-- ==== Proof.Bridge.lean ====
/-
  The two programs compute one function.

  Both programs build the same sums of neighbour features and the same edge counts from the edge list, by the same host
  operations on the same arguments: those stages are one term on both sides and are never opened. They differ in one step:
  the reference divides the sums by `max(count, 1)`, the kernel's program multiplies them by `1 / max(count, 1)`, and
  on the extended reals those agree (`Sage.mean_div_eq_mul`: the divisor is at least one, so never zero). With the means
  equal, layer 1 is `Sage.layer` of equal arrays on both sides, hence layer 2's inputs are equal, hence the results.
-/
import proofs.«140453_j18219251270415_1_alg».proof.Proof.HostChain
import proofs.«140453_j18219251270415_1_alg».proof.Proof.RefValue

set_option maxRecDepth 16384

noncomputable section

namespace Cert.Bridge

open Idealize.ShloMosaic Idealize.ShloMosaic.TcCoe Idealize.SL.Sem
open Cert.KernelIdeal.Chain Cert.ReferenceIdeal.Read

/-- The constant-one array of the node axis reads one everywhere (the reference's spelling). -/
theorem ref_one18 (i : Cert.ReferenceIdeal.S100000.Idx) : val_main_v18 (F := Ideal) i = 1 := by
  rw [val_main_v18_apply, val_main_cst_3_apply]; exact Ideal.ofBits_one_f32
theorem ref_one44 (i : Cert.ReferenceIdeal.S100000.Idx) : val_main_v44 (F := Ideal) i = 1 := by
  rw [val_main_v44_apply, val_main_cst_9_apply]; exact Ideal.ofBits_one_f32
/-- The same for the kernel's program's spelling. -/
theorem ker_one (i : Cert.KernelIdeal.S100000.Idx) :
    (broadcastInDim Cert.KernelIdeal.S100000 ![] Cert.KernelIdeal.Facts₀.bcast_S_S100000 (constant (F := Ideal) Cert.KernelIdeal.S_ .f32 0x3F800000#32)) i = 1 := by
  show Ideal.ofBits .f32 0x3F800000#32 = 1
  exact Ideal.ofBits_one_f32

/-- The summed neighbour features and the edge counts are the same terms in both programs. -/
theorem sum64_ref (x : FVec Ideal Cert.ReferenceIdeal.S100000x64 .f32) (e : (⟨Cert.ReferenceIdeal.S2x1600000, .i32⟩ : BufTy).Contents (Elt Ideal)) :
    val_main_v13 (F := Ideal) x e = sum64 (srcRow e) (dstRow e) x := rfl
theorem count17_ref (e : (⟨Cert.ReferenceIdeal.S2x1600000, .i32⟩ : BufTy).Contents (Elt Ideal)) :
    val_main_v17 (F := Ideal) e = count (dstRow e) := rfl
theorem count43_ref (e : (⟨Cert.ReferenceIdeal.S2x1600000, .i32⟩ : BufTy).Contents (Elt Ideal)) :
    val_main_v43 (F := Ideal) e = count (dstRow e) := rfl

/-- LAYER 1's MEAN: the reference's quotient is the kernel's program's product. -/
theorem mean64_ref (x : FVec Ideal Cert.ReferenceIdeal.S100000x64 .f32) (e : (⟨Cert.ReferenceIdeal.S2x1600000, .i32⟩ : BufTy).Contents (Elt Ideal)) :
    val_main_v22 (F := Ideal) x e = mean64 (srcRow e) (dstRow e) (countInv (dstRow e)) x := by
  unfold val_main_v22 val_main_v21 val_main_v20 val_main_v19 mean64 countInv
  rw [sum64_ref, count17_ref]
  exact Sage.mean_div_eq_mul _ _ _ _ _ _ _ _ ref_one18 ker_one

/-- LAYER 2's MEAN, of any layer-1 result the two sides share. -/
theorem mean128_ref (x : FVec Ideal Cert.ReferenceIdeal.S100000x64 .f32) (e : (⟨Cert.ReferenceIdeal.S2x1600000, .i32⟩ : BufTy).Contents (Elt Ideal))
    (wl wr : FVec Ideal Cert.ReferenceIdeal.S64x128 .f32) (b : FVec Ideal Cert.ReferenceIdeal.S128 .f32) :
    val_main_v48 (F := Ideal) x e wl wr b
      = mean128 (srcRow e) (dstRow e) (countInv (dstRow e)) (val_main_v29 (F := Ideal) x e wl wr b) := by
  unfold val_main_v48 val_main_v47 val_main_v46 val_main_v45 mean128 countInv
  rw [count43_ref]
  have hs : val_main_v39 (F := Ideal) x e wl wr b = sum128 (srcRow e) (dstRow e) (val_main_v29 (F := Ideal) x e wl wr b) := rfl
  rw [hs]
  exact Sage.mean_div_eq_mul _ _ _ _ _ _ _ _ ref_one44 ker_one

/-- LAYER 1 is the same array on both sides. -/
theorem hidden_ref (x : FVec Ideal Cert.ReferenceIdeal.S100000x64 .f32) (e : (⟨Cert.ReferenceIdeal.S2x1600000, .i32⟩ : BufTy).Contents (Elt Ideal))
    (wl wr : FVec Ideal Cert.ReferenceIdeal.S64x128 .f32) (b : FVec Ideal Cert.ReferenceIdeal.S128 .f32) :
    val_main_v29 (F := Ideal) x e wl wr b = hidden e x wl wr b := by
  rw [Cert.ReferenceIdeal.RefValue.layer1, mean64_ref, Cert.ReferenceIdeal.RefValue.bias1_row b Cert.KernelIdeal.Facts₀.shapeCasts_S128_S1x128]
  rfl

/-- THE RESULTS ARE EQUAL: the reference's result, as a function of the eight arguments, is the kernel's. -/
theorem result_eq (x : FVec Ideal Cert.ReferenceIdeal.S100000x64 .f32) (e : (⟨Cert.ReferenceIdeal.S2x1600000, .i32⟩ : BufTy).Contents (Elt Ideal))
    (wl1 wr1 : FVec Ideal Cert.ReferenceIdeal.S64x128 .f32) (b1 : FVec Ideal Cert.ReferenceIdeal.S128 .f32)
    (wl2 wr2 : FVec Ideal Cert.ReferenceIdeal.S128x64 .f32) (b2 : FVec Ideal Cert.ReferenceIdeal.S64 .f32) :
    val_main_v60 (F := Ideal) x e wl1 wr1 b1 wl2 wr2 b2 = output e x wl1 wr1 b1 wl2 wr2 b2 := by
  rw [Cert.ReferenceIdeal.RefValue.layer2, mean128_ref, hidden_ref, Cert.ReferenceIdeal.RefValue.bias2_row b2 Cert.KernelIdeal.Facts₀.shapeCasts_S64_S1x64]
  rfl

end Cert.Bridge

end
-- ==== Proof.lean ====
/-
  The certificate of a two-layer graph convolution with mean aggregation (PyG's SAGEConv twice: relu after the first
  layer, the logistic function after the second), a Pallas kernel against its jnp reference, over the extended reals.

  Both programs gather each edge's source-node features, add them into the edge's destination node and count each node's
  incoming edges with the same host operations; the kernel's program then runs each layer's dense part — the mean's two
  matrix products, the bias, the activation — as a pallas_call over blocks of 5000 node rows, where the reference uses
  whole-array operations. The programs differ in how the mean is taken: `sum / max(count, 1)` in the reference,
  `sum · (1 / max(count, 1))` in the kernel's program; on the extended reals the two agree because the divisor is at
  least one. The operands' passage through a sixteen-bit format before the matrix unit is the identity there, a matrix
  unit's product into a zero accumulator is the host's `dot_general`, and the kernel's `logistic` is by definition the
  reference's `1 / (1 + e^(-z))`. No step needs the inputs finite.

  Proof/SageSpec.lean states one layer as a function of whole arrays and the division law; Proof/Layer1Body.lean and
  Proof/Layer2Body.lean show each pallas_call leaves that function of its arrays; Proof/HostChain.lean reads the arrays
  back to the arguments through the host operations; Proof/KernelRun.lean is the kernel's run with its result named;
  Proof/RefValue.lean reads the reference's generated run as the same two layers; Proof/Bridge.lean joins the two.
  The two kernel frames are the generated ones; the reference's frame is its generated run with the result dropped.
-/
import proofs.«140453_j18219251270415_1_alg».proof.Defs
import proofs.«140453_j18219251270415_1_alg».proof.Proof.Gen.Kernel
import proofs.«140453_j18219251270415_1_alg».proof.Proof.Gen.Kernel.Skeleton
import proofs.«140453_j18219251270415_1_alg».proof.Proof.Gen.Kernel.Launch
import proofs.«140453_j18219251270415_1_alg».proof.Proof.Gen.Kernel.Points
import proofs.«140453_j18219251270415_1_alg».proof.Proof.Gen.Kernel.Frame
import proofs.«140453_j18219251270415_1_alg».proof.Proof.Gen.KernelIdeal
import proofs.«140453_j18219251270415_1_alg».proof.Proof.Gen.KernelIdeal.Skeleton
import proofs.«140453_j18219251270415_1_alg».proof.Proof.Gen.KernelIdeal.Launch
import proofs.«140453_j18219251270415_1_alg».proof.Proof.Gen.KernelIdeal.Points
import proofs.«140453_j18219251270415_1_alg».proof.Proof.Gen.KernelIdeal.Frame
import proofs.«140453_j18219251270415_1_alg».proof.Proof.Gen.ReferenceIdeal
import proofs.«140453_j18219251270415_1_alg».proof.Proof.Gen.ReferenceIdeal.Run
import proofs.«140453_j18219251270415_1_alg».proof.Proof.Gen.ReferenceIdeal.Read
import proofs.«140453_j18219251270415_1_alg».proof.Proof.Gen.Pre_finite_inputs
import proofs.«140453_j18219251270415_1_alg».proof.Proof.KernelRun
import proofs.«140453_j18219251270415_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result buffer ends at `output` of its arguments (its run with the result named, then the host operations
    and the two calls read back), the reference's at its generated run's term, which is the same function of arguments that
    agree (`Bridge.result_eq`). -/
theorem algebraic : Cert.algebraic_KernelIdeal_ReferenceIdeal := by
  intro m ρ m' ρ' _ hagree
  refine ⟨fun c => Cert.KernelIdeal.Chain.output (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Chain.W4_output m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v60_eq, Cert.Bridge.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
